-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512x7x7 : Shape := ⟨4, ![2048, 512, 7, 7]⟩
abbrev S2048 : Shape := ⟨1, ![2048]⟩
abbrev S_ : Shape := ⟨0, ![]⟩

class Facts : Prop where
  bcast_S_S2048x512x7x7 : S_.BroadcastsInDim S2048x512x7x7 (![] : Fin 0 → Fin S2048x512x7x7.rank)
  reducesTo_S2048x512x7x7_S_d0_1_2_3 : S2048x512x7x7.ReducesTo [0, 1, 2, 3] S_
  h_S_ : 0 < S_.numel

variable [Facts]

def fn {F : FTy → Type} [FloatOps F] (main_arg0 : FVec F S2048x512x7x7 .f32) (main_arg1 : IVec S2048 32) : IVec S_ 1 :=
  let main_v0 : FVec F S2048x512x7x7 .f32 := Host.absf main_arg0
  let main_cst : FVec F S_ .f32 := constant S_ .f32 0x7F800000#32
  let main_v1 : FVec F S2048x512x7x7 .f32 := broadcastInDim S2048x512x7x7 ![] bcast_S_S2048x512x7x7 main_cst
  let main_v2 : IVec S2048x512x7x7 1 := cmpf .olt main_v0 main_v1
  let main_c : IVec S_ 1 := constantI S_ 1 1#1
  let main_v3 : IVec S_ 1 := (fun x v => Host.reduce IntOp.andi x v reducesTo_S2048x512x7x7_S_d0_1_2_3 h_S_) main_v2 main_c
  main_v3
-- ==== Kernel.lean ====
abbrev S2048x512x7x7 : Shape := ⟨4, ![2048, 512, 7, 7]⟩
abbrev S2048 : Shape := ⟨1, ![2048]⟩
abbrev S2048x25088 : Shape := ⟨2, ![2048, 25088]⟩
abbrev S2048x1 : Shape := ⟨2, ![2048, 1]⟩
abbrev S2x64x25088 : Shape := ⟨3, ![2, 64, 25088]⟩
abbrev S128x25088 : Shape := ⟨2, ![128, 25088]⟩
abbrev S128x1 : Shape := ⟨2, ![128, 1]⟩
abbrev S1x64x25088 : Shape := ⟨3, ![1, 64, 25088]⟩
abbrev S64x25088 : Shape := ⟨2, ![64, 25088]⟩
abbrev S128 : Shape := ⟨1, ![128]⟩
abbrev S128x64 : Shape := ⟨2, ![128, 64]⟩
abbrev S_ : Shape := ⟨0, ![]⟩
abbrev S64x512x49 : Shape := ⟨3, ![64, 512, 49]⟩
abbrev S64x512 : Shape := ⟨2, ![64, 512]⟩
abbrev S64 : Shape := ⟨1, ![64]⟩
abbrev S64x1 : Shape := ⟨2, ![64, 1]⟩
abbrev S64x512x1x1 : Shape := ⟨4, ![64, 512, 1, 1]⟩

abbrev nBuf : Space → Nat
  | .hbm => 23
  | .vmem => 7
  | .smem => 0
  | _ => 0

abbrev bufTy : (tb : Table) → Fin (tcTables nBuf tb) → BufTy
  | .hbm, ⟨0, _⟩ => ⟨S2048x512x7x7, .f32⟩
  | .hbm, ⟨1, _⟩ => ⟨S2048, .i32⟩
  | .hbm, ⟨2, _⟩ => ⟨S2048x25088, .f32⟩
  | .hbm, ⟨3, _⟩ => ⟨S2048x1, .i32⟩
  | .hbm, ⟨4, _⟩ => ⟨S2x64x25088, .f32⟩
  | .hbm, ⟨5, _⟩ => ⟨S_, .f32⟩
  | .hbm, ⟨6, _⟩ => ⟨S64x25088, .f32⟩
  | .hbm, ⟨7, _⟩ => ⟨S64x512x49, .f32⟩
  | .hbm, ⟨8, _⟩ => ⟨S_, .f32⟩
  | .hbm, ⟨9, _⟩ => ⟨S64x512, .f32⟩
  | .hbm, ⟨10, _⟩ => ⟨S_, .f32⟩
  | .hbm, ⟨11, _⟩ => ⟨S2048, .f32⟩
  | .hbm, ⟨12, _⟩ => ⟨S_, .f32⟩
  | .hbm, ⟨13, _⟩ => ⟨S64, .f32⟩
  | .hbm, ⟨14, _⟩ => ⟨S2048x1, .i32⟩
  | .hbm, ⟨15, _⟩ => ⟨S64, .f32⟩
  | .hbm, ⟨16, _⟩ => ⟨S64x1, .f32⟩
  | .hbm, ⟨17, _⟩ => ⟨S_, .f32⟩
  | .hbm, ⟨18, _⟩ => ⟨S64x1, .f32⟩
  | .hbm, ⟨19, _⟩ => ⟨S64x1, .f32⟩
  | .hbm, ⟨20, _⟩ => ⟨S64x512, .f32⟩
  | .hbm, ⟨21, _⟩ => ⟨S64x512, .f32⟩
  | .hbm, ⟨22, _⟩ => ⟨S64x512x1x1, .f32⟩
  | .local _ .vmem, ⟨0, _⟩ => ⟨S128x25088, .f32⟩
  | .local _ .vmem, ⟨1, _⟩ => ⟨S128x25088, .f32⟩
  | .local _ .vmem, ⟨2, _⟩ => ⟨S128x1, .i32⟩
  | .local _ .vmem, ⟨3, _⟩ => ⟨S128x1, .i32⟩
  | .local _ .vmem, ⟨4, _⟩ => ⟨S1x64x25088, .f32⟩
  | .local _ .vmem, ⟨5, _⟩ => ⟨S1x64x25088, .f32⟩
  | .local _ .vmem, ⟨6, _⟩ => ⟨S64x25088, .f32⟩
  | _, _ => ⟨S2048x512x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x25088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x25088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2048x512x7x7_S2048x25088 : S2048x512x7x7.ShapeCasts S2048x25088
  shapeCasts_S2048_S2048x1 : S2048.ShapeCasts S2048x1
  inb_S64x25088_S64x25088_0_0 : ∀ a, (![0, 0] : Fin 2 → Nat) a + S64x25088.size a ≤ S64x25088.size a
  h_S64x25088 : 0 < S64x25088.numel
  shapeCasts_S64x25088_S64x25088 : S64x25088.ShapeCasts S64x25088
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S128x1_S128 : S128x1.ShapeCasts S128
  iota_S128x64_d1_w32 : S128x64.Iotas .tc 32 [1]
  shapeCasts_S128_S128x1 : S128.ShapeCasts S128x1
  broadcasts_S128x1_S128x64 : S128x1.Broadcasts S128x64
  natLt_1_32 : 1 < 32
  inb_S128x25088_S128x25088_0_0 : ∀ a, (![0, 0] : Fin 2 → Nat) a + S128x25088.size a ≤ S128x25088.size a
  h_S128x25088 : 0 < S128x25088.numel
  shapeCasts_S128x25088_S128x25088 : S128x25088.ShapeCasts S128x25088
  shapeCasts_S64x25088_S1x64x25088 : S64x25088.ShapeCasts S1x64x25088
  inb_S1x64x25088_S1x64x25088_0_0_0 : ∀ a, (![0, 0, 0] : Fin 3 → Nat) a + S1x64x25088.size a ≤ S1x64x25088.size a
  h_S1x64x25088 : 0 < S1x64x25088.numel
  reducesTo_S2x64x25088_S64x25088_d0 : S2x64x25088.ReducesTo [0] S64x25088
  h_S_ : 0 < S_.numel
  shapeCasts_S64x25088_S64x512x49 : S64x25088.ShapeCasts S64x512x49
  reducesTo_S64x512x49_S64x512_d2 : S64x512x49.ReducesTo [2] S64x512
  bcast_S_S2048 : S_.BroadcastsInDim S2048 (![] : Fin 0 → Fin S2048.rank)
  bcast_S_S64 : S_.BroadcastsInDim S64 (![] : Fin 0 → Fin S64.rank)
  bcast_S2048_S2048x1_0 : S2048.BroadcastsInDim S2048x1 (![0] : Fin 1 → Fin S2048x1.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  bcast_S64x512_S64x512x1x1_0_1 : S64x512.BroadcastsInDim S64x512x1x1 (![0, 1] : Fin 2 → Fin S64x512x1x1.rank)
  dot_S128x64_S128x25088_S64x25088_0_0_1_1_n_n_wf : DotDims.WF S128x64 S128x25088 S64x25088 [0] [0] [1] [1] [] []
  scatter_S64_S2048x1_S2048_n_0_0_1_wf : ScatterDims.WF S64 S2048x1 S2048 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x25088.size a ≤ S2048x25088.size a
  hwx0_0 : ∀ i : grid0.Coords, EltTy.bits .f32 = 32 ∨ (Rect.block (s := S2048x25088) S128x25088.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S2048x1.size a
  hwx0_1 : ∀ i : grid0.Coords, EltTy.bits .i32 = 32 ∨ (Rect.block (s := S2048x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x25088.size a ≤ S2x64x25088.size a
  hwx0_2 : ∀ i : grid0.Coords, EltTy.bits .f32 = 32 ∨ (Rect.block (s := S2x64x25088) S1x64x25088.size (cc0_transform_2 i) (hinb0_2 i)).WholeWords (EltTy.packing .f32)

variable [Facts₀]

def dot_S128x64_S128x25088_S64x25088_0_0_1_1_n_n : DotDims S128x64 S128x25088 S64x25088 where
  lhsContracting := [0]
  rhsContracting := [0]
  lhsNonContracting := [1]
  rhsNonContracting := [1]
  lhsBatch := []
  rhsBatch := []
  wf := dot_S128x64_S128x25088_S64x25088_0_0_1_1_n_n_wf
def scatter_S64_S2048x1_S2048_n_0_0_1 : ScatterDims S64 S2048x1 S2048 where
  updateWindowDims := []
  insertedWindowDims := [0]
  scatterDimsToOperandDims := [0]
  indexVectorDim := 1
  wf := scatter_S64_S2048x1_S2048_n_0_0_1_wf

abbrev win0_0 : Pipeline.Window sig grid0 :=
  Pipeline.Window.ofSpec (Memref.whole main_v0) S128x25088.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64x25088.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x512x7x7 : Shape := ⟨4, ![2048, 512, 7, 7]⟩
abbrev S2048 : Shape := ⟨1, ![2048]⟩
abbrev S_ : Shape := ⟨0, ![]⟩
abbrev S2048x512 : Shape := ⟨2, ![2048, 512]⟩
abbrev S64x512 : Shape := ⟨2, ![64, 512]⟩
abbrev S2048x1 : Shape := ⟨2, ![2048, 1]⟩
abbrev S64 : Shape := ⟨1, ![64]⟩
abbrev S64x1 : Shape := ⟨2, ![64, 1]⟩
abbrev S64x512x1x1 : Shape := ⟨4, ![64, 512, 1, 1]⟩

abbrev nBuf : Space → Nat
  | .hbm => 21
  | .vmem => 0
  | .smem => 0
  | _ => 0

abbrev bufTy : (tb : Table) → Fin (tcTables nBuf tb) → BufTy
  | .hbm, ⟨0, _⟩ => ⟨S2048x512x7x7, .f32⟩
  | .hbm, ⟨1, _⟩ => ⟨S2048, .i32⟩
  | .hbm, ⟨2, _⟩ => ⟨S_, .f32⟩
  | .hbm, ⟨3, _⟩ => ⟨S2048x512, .f32⟩
  | .hbm, ⟨4, _⟩ => ⟨S_, .f32⟩
  | .hbm, ⟨5, _⟩ => ⟨S64x512, .f32⟩
  | .hbm, ⟨6, _⟩ => ⟨S2048x1, .i32⟩
  | .hbm, ⟨7, _⟩ => ⟨S64x512, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S64, .f32⟩
  | .hbm, ⟨12, _⟩ => ⟨S2048x1, .i32⟩
  | .hbm, ⟨13, _⟩ => ⟨S64, .f32⟩
  | .hbm, ⟨14, _⟩ => ⟨S64x1, .f32⟩
  | .hbm, ⟨15, _⟩ => ⟨S_, .f32⟩
  | .hbm, ⟨16, _⟩ => ⟨S64x1, .f32⟩
  | .hbm, ⟨17, _⟩ => ⟨S64x1, .f32⟩
  | .hbm, ⟨18, _⟩ => ⟨S64x512, .f32⟩
  | .hbm, ⟨19, _⟩ => ⟨S64x512, .f32⟩
  | .hbm, ⟨20, _⟩ => ⟨S64x512x1x1, .f32⟩
  | _, _ => ⟨S2048x512x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  reducesTo_S2048x512x7x7_S2048x512_d2_3 : S2048x512x7x7.ReducesTo [2, 3] S2048x512
  h_S_ : 0 < S_.numel
  bcast_S_S64x512 : S_.BroadcastsInDim S64x512 (![] : Fin 0 → Fin S64x512.rank)
  bcast_S2048_S2048x1_0 : S2048.BroadcastsInDim S2048x1 (![0] : Fin 1 → Fin S2048x1.rank)
  bcast_S_S2048 : S_.BroadcastsInDim S2048 (![] : Fin 0 → Fin S2048.rank)
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  bcast_S64x512_S64x512x1x1_0_1 : S64x512.BroadcastsInDim S64x512x1x1 (![0, 1] : Fin 2 → Fin S64x512x1x1.rank)
  scatter_S64x512_S2048x1_S2048x512_1_0_0_1_wf : ScatterDims.WF S64x512 S2048x1 S2048x512 [1] [0] [0] 1
  scatter_S64_S2048x1_S2048_n_0_0_1_wf : ScatterDims.WF S64 S2048x1 S2048 [] [0] [0] 1

variable [Facts₀]

def scatter_S64x512_S2048x1_S2048x512_1_0_0_1 : ScatterDims S64x512 S2048x1 S2048x512 where
  updateWindowDims := [1]
  insertedWindowDims := [0]
  scatterDimsToOperandDims := [0]
  indexVectorDim := 1
  wf := scatter_S64x512_S2048x1_S2048x512_1_0_0_1_wf
def scatter_S64_S2048x1_S2048_n_0_0_1 : ScatterDims S64 S2048x1 S2048 where
  updateWindowDims := []
  insertedWindowDims := [0]
  scatterDimsToOperandDims := [0]
  indexVectorDim := 1
  wf := scatter_S64_S2048x1_S2048_n_0_0_1_wf

class Facts : Prop extends Facts₀ where

variable [Facts]
-- ==== Proof.Pieces.lean ====
import proofs.«407672_j927712936495_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What one grid point leaves behind. The body keeps a running [64, 25088] accumulator in scratch memory:
    it is zeroed when the inner grid coordinate is 0, then the point's contribution (the one-hot matrix of
    the point's 128 group indices, transposed, times the point's 128 rows) is added to it, and when the inner
    coordinate is 7 the accumulator is copied to the output block. Each of the three control cases therefore
    leaves the accumulator at "update of what was there" (of the zero block in the first case), and the last
    case leaves that same value in the output block with a leading unit axis. -/
namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point (inner coordinate neither 0 nor 7): the accumulator `xs0` becomes its update by the
    point's index block `x1` and row block `x0`. -/
theorem scratch_B (c : Dev nD) (i : grid0.Coords) (arg2 : Memref sig .tc .vmem S128x25088 .f32) (harg2 : arg2.IsWhole) (arg3 : Memref sig .tc .vmem S128x1 .i32) (harg3 : arg3.IsWhole) (arg4 : Memref sig .tc .vmem S1x64x25088 .f32) (harg4 : arg4.IsWhole) (arg5 : Memref sig .tc .vmem S64x25088 .f32) (harg5 : arg5.IsWhole) (hc0 : ¬cond0_0 i) (hc1 : ¬cond0_1 i)
    (x0 : Vec F S128x25088 .f32) (x1 : Vec F S128x1 .i32) (xs0 : Vec F S64x25088 .f32) :
    sout0_B_0 c i arg2 harg2 arg3 harg3 arg4 harg4 arg5 harg5 hc0 hc1 x0 x1 xs0 = k0_pay2 x1 x0 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.readCov_unit_zero (S := S64x25088) _ hz2, View.ld_unit_zero (S := S128x1) hz2, View.ld_unit_zero (S := S128x25088) hz2, View.ld_unit_zero (S := S64x25088) hz2]

/-- A first point (inner coordinate 0): the accumulator is zeroed and then updated, whatever it held. -/
theorem scratch_A (c : Dev nD) (i : grid0.Coords) (arg2 : Memref sig .tc .vmem S128x25088 .f32) (harg2 : arg2.IsWhole) (arg3 : Memref sig .tc .vmem S128x1 .i32) (harg3 : arg3.IsWhole) (arg4 : Memref sig .tc .vmem S1x64x25088 .f32) (harg4 : arg4.IsWhole) (arg5 : Memref sig .tc .vmem S64x25088 .f32) (harg5 : arg5.IsWhole) (hc0 : cond0_0 i) (hc1 : ¬cond0_1 i)
    (x0 : Vec F S128x25088 .f32) (x1 : Vec F S128x1 .i32) :
    sout0_A_0 c i arg2 harg2 arg3 harg3 arg4 harg4 arg5 harg5 hc0 hc1 x0 x1 = k0_pay2 x1 x0 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S64x25088) hz2]
  simp only [View.readAt_eq_ld, harg2.read_unread, harg3.read_unread, harg5.read_unread, View.readCov_unit_zero (S := S64x25088) _ hz2, View.ld_unit_zero (S := S128x1) hz2, View.ld_unit_zero (S := S128x25088) hz2, View.ld_unit_zero (S := S64x25088) hz2]

/-- A last point (inner coordinate 7): the accumulator is updated as at a middle point, -/
theorem scratch_C (c : Dev nD) (i : grid0.Coords) (arg2 : Memref sig .tc .vmem S128x25088 .f32) (harg2 : arg2.IsWhole) (arg3 : Memref sig .tc .vmem S128x1 .i32) (harg3 : arg3.IsWhole) (arg4 : Memref sig .tc .vmem S1x64x25088 .f32) (harg4 : arg4.IsWhole) (arg5 : Memref sig .tc .vmem S64x25088 .f32) (harg5 : arg5.IsWhole) (hc0 : ¬cond0_0 i) (hc1 : cond0_1 i)
    (x0 : Vec F S128x25088 .f32) (x1 : Vec F S128x1 .i32) (xs0 : Vec F S64x25088 .f32) :
    sout0_C_0 c i arg2 harg2 arg3 harg3 arg4 harg4 arg5 harg5 hc0 hc1 x0 x1 xs0 = k0_pay2 x1 x0 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.readCov_unit_zero (S := S64x25088) _ hz2, View.ld_unit_zero (S := S128x1) hz2, View.ld_unit_zero (S := S128x25088) hz2, View.ld_unit_zero (S := S64x25088) hz2]

/-- and the output block receives the updated accumulator under a leading unit axis. -/
theorem out_C (c : Dev nD) (i : grid0.Coords) (arg2 : Memref sig .tc .vmem S128x25088 .f32) (harg2 : arg2.IsWhole) (arg3 : Memref sig .tc .vmem S128x1 .i32) (harg3 : arg3.IsWhole) (arg4 : Memref sig .tc .vmem S1x64x25088 .f32) (harg4 : arg4.IsWhole) (arg5 : Memref sig .tc .vmem S64x25088 .f32) (harg5 : arg5.IsWhole) (hc0 : ¬cond0_0 i) (hc1 : cond0_1 i)
    (x0 : Vec F S128x25088 .f32) (x1 : Vec F S128x1 .i32) (xs0 : Vec F S64x25088 .f32) :
    out0_C_2 c i arg2 harg2 arg3 harg3 arg4 harg4 arg5 harg5 hc0 hc1 x0 x1 xs0 = k0_pay3 (k0_pay2 x1 x0 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread, View.readCov_unit_zero (S := S64x25088) _ hz2, View.ld_unit_zero (S := S128x1) hz2, View.ld_unit_zero (S := S128x25088) hz2, View.ld_unit_zero (S := S64x25088) hz2]

end Cert.KernelIdeal.Acc

end
-- ==== Proof.SegSum.lean ====
import Idealize.ShloMosaic.PureOps.Ideal
import Idealize.ShloMosaic.PureOps.Ideal.Laws
import Idealize.ShloMosaic.Lib.ValueIdx
import Mathlib.Algebra.BigOperators.Intervals
import Mathlib.Algebra.BigOperators.Fin

/-! Sums of selected rows. A group index is a 32-bit word; group `g` (below 64) collects the rows whose word
    is the word of `g`. Whether the word is compared as a word (the kernel's one-hot matrix) or read as a
    signed integer and compared with `g` (a scatter's start index) selects the same rows. A product with the
    one-hot entry keeps the factor or gives zero, and sums over consecutive stretches of rows join. -/

namespace Cert.SegSum

open Idealize.ShloMosaic

/-- Reading a word as a signed integer gives `g < 64` exactly when the word is the word of `g`. -/
theorem toInt_eq_iff (w : BitVec 32) (g : ℕ) (hg : g < 64) : w.toInt = (g : ℤ) ↔ w = BitVec.ofNat 32 g := by
  constructor
  · intro h
    have := BitVec.ofInt_toInt (x := w)
    rw [h] at this
    rw [← this]
    simp
  · rintro rfl
    have h1 : (BitVec.ofNat 32 g).toNat = g := by rw [BitVec.toNat_ofNat]; omega
    rw [BitVec.toInt_eq_toNat_cond, h1, if_pos (by omega)]

/-- The one-hot entry times a value: the value where the words agree, zero elsewhere. -/
theorem onehot_mul (w v : BitVec 32) (a : EReal) :
    ((((IntOp.cmpi .eq w v).setWidth 32).toInt : ℝ) : EReal) * a = if w = v then a else 0 := by
  unfold IntOp.cmpi
  by_cases h : w = v
  · subst h
    simp
  · rw [if_neg h]
    have : (w == v) = false := by simpa using h
    simp [this]

/-- A stretch of 128 consecutive rows, as an interval sum. -/
theorem sum_block (f : ℕ → EReal) (a : ℕ) : ∑ r : Fin 128, f (a + r.val) = ∑ k ∈ Finset.Ico a (a + 128), f k := by
  rw [Finset.sum_Ico_eq_sum_range, Nat.add_sub_cancel_left, Fin.sum_univ_eq_sum_range (fun r => f (a + r)) 128]

/-- Appending a stretch of 128 rows to an interval sum. -/
theorem sum_extend (f : ℕ → EReal) (lo a : ℕ) (h : lo ≤ a) :
    ∑ k ∈ Finset.Ico lo a, f k + ∑ r : Fin 128, f (a + r.val) = ∑ k ∈ Finset.Ico lo (a + 128), f k := by
  rw [sum_block, Finset.sum_Ico_consecutive f h (Nat.le_add_right a 128)]

end Cert.SegSum
-- ==== Proof.Update.lean ====
import proofs.«407672_j927712936495_2_alg».proof.Proof.Gen.KernelIdeal.Skeleton
import proofs.«407672_j927712936495_2_alg».proof.Proof.SegSum
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

/-! The point's update read at one entry, over the extended reals. The update adds to the accumulator the
    product of the transposed one-hot matrix (entry (r, g) is 1 where row r's index word is the word of g)
    with the point's 128 rows: entry (g, j) grows by the sum, over the rows r of the block whose word names g,
    of the row's entry j. -/
namespace Cert.KernelIdeal.Acc

open Cert.KernelIdeal Cert.KernelIdeal.Gen Idealize.ShloMosaic.ValueIdx

/-- The product contracts the row axis of both operands: the left index at (g, j) and row q is (q, g), -/
theorem lhs_0 (i : S64x25088.Idx) (q : dot_S128x64_S128x25088_S64x25088_0_0_1_1_n_n.contr.Idx) :
    (dot_S128x64_S128x25088_S64x25088_0_0_1_1_n_n.lhsIdx i q 0).val = (q ⟨0, by decide⟩).val :=
  dot_S128x64_S128x25088_S64x25088_0_0_1_1_n_n.lhsIdx_val_of_single rfl i q
theorem lhs_1 (i : S64x25088.Idx) (q : dot_S128x64_S128x25088_S64x25088_0_0_1_1_n_n.contr.Idx) :
    (dot_S128x64_S128x25088_S64x25088_0_0_1_1_n_n.lhsIdx i q 1).val = (i 0).val := by
  unfold DotDims.lhsIdx
  rw [dif_neg (show ¬(1 : Fin S128x64.rank) ∈ dot_S128x64_S128x25088_S64x25088_0_0_1_1_n_n.lhsBatch by decide), dif_pos (show (1 : Fin S128x64.rank) ∈ dot_S128x64_S128x25088_S64x25088_0_0_1_1_n_n.lhsNonContracting by decide)]
  rfl
/-- and the right index is (q, j). -/
theorem rhs_0 (i : S64x25088.Idx) (q : dot_S128x64_S128x25088_S64x25088_0_0_1_1_n_n.contr.Idx) :
    (dot_S128x64_S128x25088_S64x25088_0_0_1_1_n_n.rhsIdx i q 0).val = (q ⟨0, by decide⟩).val :=
  dot_S128x64_S128x25088_S64x25088_0_0_1_1_n_n.rhsIdx_val_of_single rfl i q
theorem rhs_1 (i : S64x25088.Idx) (q : dot_S128x64_S128x25088_S64x25088_0_0_1_1_n_n.contr.Idx) :
    (dot_S128x64_S128x25088_S64x25088_0_0_1_1_n_n.rhsIdx i q 1).val = (i 1).val := by
  unfold DotDims.rhsIdx
  rw [dif_neg (show ¬(1 : Fin S128x25088.rank) ∈ dot_S128x64_S128x25088_S64x25088_0_0_1_1_n_n.rhsBatch by decide), dif_pos (show (1 : Fin S128x25088.rank) ∈ dot_S128x64_S128x25088_S64x25088_0_0_1_1_n_n.rhsNonContracting by decide)]
  rfl

/-- The one-hot matrix's entry (r, g): row r's index word compared with the word of g, as a float. -/
theorem onehot_apply (v3 : Vec Ideal S128x1 .i32) (r : Fin 128) (g : Fin 64) :
    (sitofp .f32 (extui 32 (cmpi .eq (broadcastTo S128x64 v3 broadcasts_S128x1_S128x64)
        (iota .tc S128x64 32 [1] iota_S128x64_d1_w32)) natLt_1_32) : FVec Ideal S128x64 .f32) (ix2 r g)
      = ((((IntOp.cmpi .eq (v3 (ix2 r 0)) (BitVec.ofNat 32 g.val)).setWidth 32).toInt : ℝ) : EReal) := by
  show ((((IntOp.cmpi .eq (broadcastTo S128x64 v3 broadcasts_S128x1_S128x64 (ix2 r g)) (iota .tc S128x64 32 [1] iota_S128x64_d1_w32 (ix2 r g))).setWidth 32).toInt : ℝ) : EReal) = _
  rw [iota_single_apply, broadcastTo_apply v3 broadcasts_S128x1_S128x64 (ix2 r g) (ix2 r 0) (fun a => match a with
    | ⟨0, _⟩ => by show r.val = if (128 : Nat) = 1 then 0 else r.val; rw [if_neg (by decide)]
    | ⟨1, _⟩ => by show 0 = if (1 : Nat) = 1 then 0 else _; rw [if_pos rfl])]

/-- The update at entry (g, j): what the accumulator held there plus the entries j of the block's rows whose
    word names g. -/
theorem update_apply (v3 : Vec Ideal S128x1 .i32) (v12 : Vec Ideal S128x25088 .f32) (v15 : Vec Ideal S64x25088 .f32)
    (g : Fin 64) (j : Fin 25088) :
    k0_pay2 (F := Ideal) v3 v12 v15 (ix2 g j)
      = v15 (ix2 g j) + ∑ r : Fin 128, (if v3 (ix2 r 0) = BitVec.ofNat 32 g.val then v12 (ix2 r j) else 0) := by
  unfold k0_pay2
  dsimp only
  simp only [shapeCast_self, shapeCast_shapeCast, matmul]
  rw [addf_apply]
  congr 1
  rw [Ideal.matmul_constant_zero_apply, ← Equiv.sum_comp (contrEquiv1 dot_S128x64_S128x25088_S64x25088_0_0_1_1_n_n 128 rfl rfl).symm]
  refine Finset.sum_congr rfl fun k _ => ?_
  have hk := contrEquiv1_symm_val dot_S128x64_S128x25088_S64x25088_0_0_1_1_n_n 128 rfl rfl k
  have el : dot_S128x64_S128x25088_S64x25088_0_0_1_1_n_n.lhsIdx (ix2 g j) ((contrEquiv1 dot_S128x64_S128x25088_S64x25088_0_0_1_1_n_n 128 rfl rfl).symm k) = ix2 k g := funext fun a => Fin.ext (by
    match a with
    | ⟨0, _⟩ => exact (lhs_0 _ _).trans hk
    | ⟨1, _⟩ => exact lhs_1 _ _)
  have er : dot_S128x64_S128x25088_S64x25088_0_0_1_1_n_n.rhsIdx (ix2 g j) ((contrEquiv1 dot_S128x64_S128x25088_S64x25088_0_0_1_1_n_n 128 rfl rfl).symm k) = ix2 k j := funext fun a => Fin.ext (by
    match a with
    | ⟨0, _⟩ => exact (rhs_0 _ _).trans hk
    | ⟨1, _⟩ => exact rhs_1 _ _)
  rw [el, er, onehot_apply, Cert.SegSum.onehot_mul]

/-- The zero block the first point of each outer coordinate starts from. -/
theorem zero_apply (i : S64x25088.Idx) : k0_pay1 (F := Ideal) i = 0 := by
  unfold k0_pay1
  rw [shapeCast_self]
  exact Ideal.ofBits_zero_f32

/-- The output block is the accumulator under a leading unit axis. -/
theorem emit_apply (v23 : Vec Ideal S64x25088 .f32) (g : Fin 64) (j : Fin 25088) :
    k0_pay3 (F := Ideal) v23 (ix3 0 g j) = v23 (ix2 g j) := by
  unfold k0_pay3
  refine (shapeCast_addUnit_apply _ v23 shapeCasts_S64x25088_S1x64x25088 (ix3 0 g j)).trans ?_
  exact congrArg v23 (funext fun a => match a with | ⟨0, _⟩ => rfl | ⟨1, _⟩ => rfl)

end Cert.KernelIdeal.Acc

end
-- ==== Proof.Blocks.lean ====
import proofs.«407672_j927712936495_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

/-! The arrays the region finds and the blocks it is handed. Before the region the host flattens the input
    [2048, 512, 7, 7] to rows [2048, 25088] (entry (n, 49 m + 7 h + w) is the input's (n, m, h, w)) and the index
    vector to a column [2048, 1]. Grid point t (outer coordinate t / 8, inner t % 8) is handed rows
    128 t .. 128 t + 127 of both, and the output block of point t is slab t / 8 of the [2, 64, 25088] result. -/
namespace Cert.KernelIdeal.Acc

open Cert.KernelIdeal Cert.KernelIdeal.Gen Idealize.ShloMosaic.ValueIdx

variable {F : FTy → Type} [FloatOps F]
variable (m : (ℓ : Loc nD τ sig) → Buf (Elt F) ℓ)

/-- The flattened rows and the index column, as the region finds them. -/
abbrev rowsArr (c : Dev nD) : Vec F S2048x25088 .f32 := V m c main_v0
abbrev idsArr (c : Dev nD) : Vec F S2048x1 .i32 := V m c main_v1
/-- The blocks of them point `t` is handed. -/
abbrev rowsBlk (c : Dev nD) (t : Fin cfg0.N) : Vec F S128x25088 .f32 := iblk m c 0 t
abbrev idsBlk (c : Dev nD) (t : Fin cfg0.N) : Vec F S128x1 .i32 := iblk m c 1 t

/-- The three index maps over the 16 grid points: both inputs at row block t, the output at slab t / 8. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8 ∧ win0_2.index t (1 : Fin 3) = 0 ∧ win0_2.index t (2 : Fin 3) = 0 :=
  (by decide +kernel : ∀ t : Fin grid0.N, _)

theorem rowsBlk_apply (c : Dev nD) (t : Fin cfg0.N) (r : Fin 128) (j : Fin 25088) (h : 128 * t.val + r.val < 2048) :
    rowsBlk m c t (ix2 r j) = rowsArr m c (ix2 ⟨128 * t.val + r.val, h⟩ j) := by
  obtain ⟨e0, e1, -, -, -, -, -⟩ := idx_facts t
  unfold rowsBlk rowsArr iblk
  rw [View.read_apply]
  show V m c main_v0 _ = V m c main_v0 _
  congr 1
  funext a
  apply Fin.ext
  match a with
  | ⟨0, _⟩ => show win0_0.index t (0 : Fin 2) * 128 + 1 * r.val = 128 * t.val + r.val; omega
  | ⟨1, _⟩ => show win0_0.index t (1 : Fin 2) * 25088 + 1 * j.val = j.val; omega

theorem idsBlk_apply (c : Dev nD) (t : Fin cfg0.N) (r : Fin 128) (h : 128 * t.val + r.val < 2048) :
    idsBlk m c t (ix2 r 0) = idsArr m c (ix2 ⟨128 * t.val + r.val, h⟩ 0) := by
  obtain ⟨-, -, e0, e1, -, -, -⟩ := idx_facts t
  unfold idsBlk idsArr iblk
  rw [View.read_apply]
  show V m c main_v1 _ = V m c main_v1 _
  congr 1
  funext a
  apply Fin.ext
  match a with
  | ⟨0, _⟩ => show win0_1.index t (0 : Fin 2) * 128 + 1 * r.val = 128 * t.val + r.val; omega
  | ⟨1, _⟩ => show win0_1.index t (1 : Fin 2) * 1 + 1 * 0 = 0; omega

/-- The rows are the input flattened: -/
theorem rowsArr_eq (c : Dev nD) :
    rowsArr m c = shapeCast S2048x25088 (m ((c : Thread nD τ).loc main_arg0)) shapeCasts_S2048x512x7x7_S2048x25088 := by
  show StableHlo.after hostOps0 (fun b => m (c, b)) (Proc.devRef .tc main_v0) = _
  after_results
  rfl

/-- the index column is the index vector. -/
theorem idsArr_eq (c : Dev nD) :
    idsArr m c = shapeCast S2048x1 (m ((c : Thread nD τ).loc main_arg1)) shapeCasts_S2048_S2048x1 := by
  show StableHlo.after hostOps0 (fun b => m (c, b)) (Proc.devRef .tc main_v1) = _
  after_results
  rfl

/-- Entry (n, 49 mm + 7 h + w) of the rows is the input's (n, mm, h, w). -/
theorem rowsArr_apply (c : Dev nD) (n : Fin 2048) (j : Fin 25088) (mm : Fin 512) (h : Fin 7) (w : Fin 7)
    (hj : j.val = 49 * mm.val + 7 * h.val + w.val) :
    rowsArr m c (ix2 n j) = m ((c : Thread nD τ).loc main_arg0) (ix4 n mm h w) := by
  rw [rowsArr_eq]
  refine shapeCast_apply _ _ _ (ix4 n mm h w) ?_
  rw [Shape.rowMajor_val_two, Shape.rowMajor_val_four]
  show ((n.val * 512 + mm.val) * 7 + h.val) * 7 + w.val = n.val * 25088 + j.val
  omega

/-- Entry (n, 0) of the index column is the index vector's n. -/
theorem idsArr_apply (c : Dev nD) (n : Fin 2048) :
    idsArr m c (ix2 n 0) = m ((c : Thread nD τ).loc main_arg1) (ix1 n) := by
  rw [idsArr_eq]
  refine shapeCast_apply _ _ _ (ix1 n) ?_
  rw [Shape.rowMajor_val_two, Shape.rowMajor_val_one]
  show n.val = n.val * 1 + 0
  omega

end Cert.KernelIdeal.Acc

end
-- ==== Proof.Running.lean ====
import proofs.«407672_j927712936495_2_alg».proof.Proof.Pieces
import proofs.«407672_j927712936495_2_alg».proof.Proof.Update
import proofs.«407672_j927712936495_2_alg».proof.Proof.Blocks

set_option maxRecDepth 16384

noncomputable section

open Idealize.ShloMosaic Idealize.ShloMosaic.TcCoe Idealize.SL.Sem
open Idealize.ShloMosaic.Pipeline (Dat)

/-! The accumulator after each grid point. Row k of the flattened input contributes to group g, column j, its
    entry j when its index word names g, and nothing otherwise. After point n the accumulator's entry (g, j) is
    the sum of the contributions of the rows from the start of n's outer coordinate (row 1024 (n / 8)) up to
    the end of n's block (row 128 (n + 1)): the first point of each outer coordinate starts from zero, every
    later one appends its 128 rows. So the block written back at the last point of outer coordinate c is the
    sum over that half of the rows, rows 1024 c .. 1024 c + 1023. -/
namespace Cert.KernelIdeal.Acc

open Cert.KernelIdeal Cert.KernelIdeal.Gen Idealize.ShloMosaic.ValueIdx

variable (m : (ℓ : Loc nD τ sig) → Buf (Elt Ideal) ℓ)

/-- Row `k`'s contribution to group `g`, column `j` (zero past the last row). -/
def contrib (c : Dev nD) (g : Fin 64) (j : Fin 25088) (k : ℕ) : EReal :=
  if h : k < 2048 then
    (if idsArr m c (ix2 ⟨k, h⟩ 0) = BitVec.ofNat 32 g.val then rowsArr m c (ix2 ⟨k, h⟩ j) else 0)
  else 0

/-- The block handed to point `t` holds rows 128 t .. 128 t + 127. -/
theorem blk_term (c : Dev nD) (t : Fin cfg0.N) (g : Fin 64) (j : Fin 25088) (r : Fin 128) :
    (if idsBlk m c t (ix2 r 0) = BitVec.ofNat 32 g.val then rowsBlk m c t (ix2 r j) else 0)
      = contrib m c g j (128 * t.val + r.val) := by
  have hN : t.val < 16 := lt_of_lt_of_eq t.isLt (show cfg0.N = 16 from N_0)
  have h : 128 * t.val + r.val < 2048 := by have := r.isLt; omega
  unfold contrib
  rw [dif_pos h, rowsBlk_apply m c t r j h, idsBlk_apply m c t r h]

/-- The accumulator after point `n`. -/
theorem acc_eq (c : Dev nD) : ∀ (n : ℕ) (h : n < cfg0.N) (g : Fin 64) (j : Fin 25088),
    (outsAt0 m c n h).2 (ix2 g j) = ∑ k ∈ Finset.Ico (1024 * (n / 8)) (128 * (n + 1)), contrib m c g j k := by
  intro n
  induction n with
  | zero =>
    intro h g j
    have h0 : (⟨0, h⟩ : Fin cfg0.N).val % 8 = 0 := rfl
    have h1 : ¬(⟨0, h⟩ : Fin cfg0.N).val % 8 = 7 := by show ¬(0 : ℕ) % 8 = 7; decide
    rw [outsAt0_A m c ⟨0, h⟩ h0 h1]
    dsimp only
    refine (congrFun (scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr h0) (fun hh => h1 ((hcond0_1 ⟨0, h⟩).mp hh)) (iblk m c 0 ⟨0, h⟩) (iblk m c 1 ⟨0, h⟩)) (ix2 g j)).trans ?_
    rw [update_apply, zero_apply, zero_add]
    refine (Finset.sum_congr rfl fun r _ => blk_term m c ⟨0, h⟩ g j r).trans ?_
    exact Cert.SegSum.sum_block (contrib m c g j) (128 * 0)
  | succ n ih =>
    intro h g j
    have hN : n + 1 < 16 := lt_of_lt_of_eq h (show cfg0.N = 16 from N_0)
    by_cases h0 : (n + 1) % 8 = 0
    · have h1 : ¬(n + 1) % 8 = 7 := by omega
      rw [outsAt0_A m c ⟨n + 1, h⟩ h0 h1]
      dsimp only
      refine (congrFun (scratch_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩)) (ix2 g j)).trans ?_
      rw [update_apply, zero_apply, zero_add]
      refine (Finset.sum_congr rfl fun r _ => blk_term m c ⟨n + 1, h⟩ g j r).trans ?_
      have e : 1024 * ((n + 1) / 8) = 128 * (n + 1) := by omega
      rw [e]
      exact Cert.SegSum.sum_block (contrib m c g j) (128 * (n + 1))
    · have e1 : 1024 * ((n + 1) / 8) = 1024 * (n / 8) := by omega
      have e2 : 128 * (n + 1 + 1) = 128 * (n + 1) + 128 := by omega
      have hle : 1024 * (n / 8) ≤ 128 * (n + 1) := by omega
      have step : (outsAt0 m c n (Nat.lt_of_succ_lt h)).2 (ix2 g j)
          + ∑ r : Fin 128, (if idsBlk m c ⟨n + 1, h⟩ (ix2 r 0) = BitVec.ofNat 32 g.val then rowsBlk m c ⟨n + 1, h⟩ (ix2 r j) else 0)
          = ∑ k ∈ Finset.Ico (1024 * ((n + 1) / 8)) (128 * (n + 1 + 1)), contrib m c g j k := by
        rw [ih (Nat.lt_of_succ_lt h) g j, e1, e2]
        refine (congrArg (_ + ·) (Finset.sum_congr rfl fun r _ => blk_term m c ⟨n + 1, h⟩ g j r)).trans ?_
        exact Cert.SegSum.sum_extend (contrib m c g j) _ (128 * (n + 1)) hle
      by_cases h1 : (n + 1) % 8 = 7
      · rw [outsAt0_C m c ⟨n + 1, h⟩ h0 h1]
        dsimp only
        refine (congrFun (scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2) (ix2 g j)).trans ?_
        rw [update_apply]
        exact step
      · rw [outsAt0_B m c ⟨n + 1, h⟩ h0 h1]
        dsimp only
        refine (congrFun (scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2) (ix2 g j)).trans ?_
        rw [update_apply]
        exact step

/-- What the last point of an outer coordinate writes back: the accumulator under a leading unit axis. -/
theorem out_eq (c : Dev nD) (t : Fin cfg0.N) (h1 : t.val % 8 = 7) (g : Fin 64) (j : Fin 25088) :
    (outsAt0 m c t.val t.isLt).1 (ix3 0 g j)
      = ∑ k ∈ Finset.Ico (1024 * (t.val / 8)) (1024 * (t.val / 8) + 1024), contrib m c g j k := by
  have hN : t.val < 16 := lt_of_lt_of_eq t.isLt (show cfg0.N = 16 from N_0)
  have h0 : ¬t.val % 8 = 0 := by omega
  have hs := acc_eq m c t.val t.isLt g j
  rw [outsAt0_C m c t h0 h1] at hs ⊢
  dsimp only at hs ⊢
  rw [scratch_C (F := Ideal)] at hs
  refine (congrFun (out_C (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2) (ix3 0 g j)).trans ?_
  rw [emit_apply, hs]
  have e : 128 * (t.val + 1) = 1024 * (t.val / 8) + 1024 := by omega
  rw [e]

end Cert.KernelIdeal.Acc

end
-- ==== Proof.Final.lean ====
import proofs.«407672_j927712936495_2_alg».proof.Proof.Running
import Idealize.ShloMosaic.Lib.StableHlo.Run

set_option maxRecDepth 16384

noncomputable section

open Idealize.ShloMosaic Idealize.ShloMosaic.TcCoe Idealize.SL.Sem
open Idealize.ShloMosaic.Pipeline (Dat)

/-! The call's result array and the host's finishing steps. The two write-backs (after points 7 and 15) fill the
    two slabs of the [2, 64, 25088] result, slab c with the sums over rows 1024 c .. 1024 c + 1023. The host then
    adds the two slabs, folds each run of 49 columns into one, and divides by 49 times the group's row count. -/
namespace Cert.KernelIdeal.Acc

open Cert.KernelIdeal Cert.KernelIdeal.Gen Idealize.ShloMosaic.ValueIdx

variable (m : (ℓ : Loc nD τ sig) → Buf (Elt Ideal) ℓ) (ρ : Dev nD → PrngReg)

/-- The result of the call: entry (c', g, j) is the sum of the contributions to (g, j) of rows
    1024 c' .. 1024 c' + 1023. -/
def halves (c : Dev nD) : FVec Ideal S2x64x25088 .f32 := fun i =>
  ∑ k ∈ Finset.Ico (1024 * (i 0).val) (1024 * (i 0).val + 1024), contrib m c ⟨(i 1).val, (i 1).isLt⟩ ⟨(i 2).val, (i 2).isLt⟩ k

/-- What a write-back writes is its slab of that array. -/
theorem flushed_eq (c : Dev nD) (t : Fin cfg0.N) (hf : (cfg0.win 2).flush t = true) :
    (dats m 0 c).flushed 2 t = ((cfg0.win 2).blk t).view.read (Elt Ideal) (halves m c) := by
  have h7 : t.val % 8 = 7 := (flush0_2 t).mp hf
  have hN : t.val < 16 := lt_of_lt_of_eq t.isLt (show cfg0.N = 16 from N_0)
  obtain ⟨-, -, -, -, e0, e1, e2⟩ := idx_facts t
  show (cfg0.win 2).cut (grid0.coords t) ((dats m 0 c).after 2 t) = _
  rw [after0_2]
  have key : ∀ y : S1x64x25088.Idx, (outsAt0 m c t.val t.isLt).1 y = halves m c (((cfg0.win 2).blk t).view.emb y) := by
    intro y
    obtain ⟨y0, g, j, rfl⟩ : ∃ (y0 : Fin 1) (g : Fin 64) (j : Fin 25088), y = ix3 y0 g j := ⟨y 0, y 1, y 2, eq_ix3 y⟩
    obtain rfl : y0 = 0 := Subsingleton.elim _ _
    rw [out_eq m c t h7 g j]
    have he : ((cfg0.win 2).blk t).view.emb (ix3 (0 : Fin 1) g j) = ix3 (⟨t.val / 8, by omega⟩ : Fin 2) g j := by
      funext a
      apply Fin.ext
      match a with
      | ⟨0, _⟩ => show win0_2.index t (0 : Fin 3) * 1 + 1 * 0 = t.val / 8; omega
      | ⟨1, _⟩ => show win0_2.index t (1 : Fin 3) * 64 + 1 * g.val = g.val; omega
      | ⟨2, _⟩ => show win0_2.index t (2 : Fin 3) * 25088 + 1 * j.val = j.val; omega
    rw [he]
    rfl
  funext y
  exact key y

/-- An entry of the result lies in a write-back's slab exactly when its coordinates are in the slab's ranges. -/
theorem mem_blk (t : Fin cfg0.N) (i : S2x64x25088.Idx) :
    i ∈ ((cfg0.win 2).blk t).view.set ↔ ∀ a : Fin 3, win0_2.index t a * S1x64x25088.size a ≤ (i a).val ∧ (i a).val < win0_2.index t a * S1x64x25088.size a + S1x64x25088.size a := by
  show i ∈ ((View.whole main_v2).slice (win0_2.rect t)).set ↔ _
  rw [View.set_slice_whole, Rect.mem_set_unit]
  exact Iff.rfl

/-- Every entry of slab c' is written back after point 8 c' + 7. -/
theorem cover (i : S2x64x25088.Idx) :
    ∃ t : Fin cfg0.N, (cfg0.win 2).flush t = true ∧ i ∈ ((cfg0.win 2).blk t).view.set := by
  have hi0 : (i 0).val < 2 := (i 0).isLt
  have hi1 : (i 1).val < 64 := (i 1).isLt
  have hi2 : (i 2).val < 25088 := (i 2).isLt
  have hN : cfg0.N = 16 := N_0
  have ht : 8 * (i 0).val + 7 < cfg0.N := by omega
  refine ⟨⟨8 * (i 0).val + 7, ht⟩, (flush0_2 ⟨8 * (i 0).val + 7, ht⟩).mpr (by show (8 * (i 0).val + 7) % 8 = 7; omega), ?_⟩
  obtain ⟨-, -, -, -, e0, e1, e2⟩ := idx_facts ⟨8 * (i 0).val + 7, ht⟩
  have e0' : win0_2.index ⟨8 * (i 0).val + 7, ht⟩ (0 : Fin 3) = (i 0).val := by
    rw [e0]; show (8 * (i 0).val + 7) / 8 = _; omega
  rw [mem_blk]
  intro a
  match a with
  | ⟨0, _⟩ => show win0_2.index ⟨8 * (i 0).val + 7, ht⟩ (0 : Fin 3) * 1 ≤ (i 0).val ∧ (i 0).val < win0_2.index ⟨8 * (i 0).val + 7, ht⟩ (0 : Fin 3) * 1 + 1; omega
  | ⟨1, _⟩ => show win0_2.index ⟨8 * (i 0).val + 7, ht⟩ (1 : Fin 3) * 64 ≤ (i 1).val ∧ (i 1).val < win0_2.index ⟨8 * (i 0).val + 7, ht⟩ (1 : Fin 3) * 64 + 64; omega
  | ⟨2, _⟩ => show win0_2.index ⟨8 * (i 0).val + 7, ht⟩ (2 : Fin 3) * 25088 ≤ (i 2).val ∧ (i 2).val < win0_2.index ⟨8 * (i 0).val + 7, ht⟩ (2 : Fin 3) * 25088 + 25088; omega

/-- So the call leaves its result array at the two half sums. -/
theorem result_eq (c : Dev nD) : (dats m 0 c).arrAt 2 cfg0.N = halves m c :=
  (dats m 0 c).arrAt_eq_of_cover 2 (halves m c) (flushed_eq m c) cover

/-- Adding the two slabs and folding each run of 49 columns. -/
def folded (slabs : FVec Ideal S2x64x25088 .f32) : FVec Ideal S64x512 .f32 :=
  Host.reduceAdd (shapeCast S64x512x49 (Host.reduceAdd slabs (constant S_ .f32 0x00000000#32) reducesTo_S2x64x25088_S64x25088_d0 h_S_) shapeCasts_S64x25088_S64x512x49)
    (constant S_ .f32 0x00000000#32) reducesTo_S64x512x49_S64x512_d2 h_S_

/-- 49 times each group's row count, along the 512 columns. -/
def denom (ids : IVec S2048 32) : FVec Ideal S64x512 .f32 :=
  broadcastInDim S64x512 ![0, 1] bcast_S64x1_S64x512_0_1
    (mulf (broadcastInDim S64x1 ![0] bcast_S64_S64x1_0
        (Host.scatterAdd scatter_S64_S2048x1_S2048_n_0_0_1 (broadcastInDim S64 ![] bcast_S_S64 (constant S_ .f32 0x00000000#32))
          (broadcastInDim S2048x1 ![0] bcast_S2048_S2048x1_0 ids) (broadcastInDim S2048 ![] bcast_S_S2048 (constant S_ .f32 0x3F800000#32))))
      (broadcastInDim S64x1 ![] bcast_S_S64x1 (constant S_ .f32 0x42440000#32)))

/-- The host's finishing steps on the call's result and the index vector. -/
def finish (slabs : FVec Ideal S2x64x25088 .f32) (ids : IVec S2048 32) : FVec Ideal S64x512x1x1 .f32 :=
  broadcastInDim S64x512x1x1 ![0, 1] bcast_S64x512_S64x512x1x1_0_1 (Host.divf (folded slabs) (denom ids))

/-- The program's result: the finishing steps applied to the two half sums. -/
theorem tail_eq (c : Dev nD) :
    Pipeline.afterTail₀ cfgs (dats m) 0 (V0 m) [hostOps1] c main_v15 = finish (halves m c) (m ((c : Thread nD τ).loc main_arg1)) := by
  unfold Pipeline.afterTail₀
  show StableHlo.after hostOps1 _ (Proc.devRef .tc main_v15) = _
  after_results
  have e2 : Pipeline.withArrays (cfgs 0).spec c (V0 m c) (fun w => (dats m 0 c).arrAt w (cfgs 0).N) (Proc.tc.devRef main_v2) = halves m c :=
    (Pipeline.withArrays_arr spec0 launch0.win.arr_inj c _ _ 2).trans (result_eq m c)
  have e1 : Pipeline.withArrays (cfgs 0).spec c (V0 m c) (fun w => (dats m 0 c).arrAt w (cfgs 0).N) (Proc.tc.devRef main_arg1) = m ((c : Thread nD τ).loc main_arg1) :=
    (Pipeline.withArrays_of_ne _ c (V0 m c) _ main_arg1 (by exact (by decide : ∀ w, Pipeline.arrRef spec0 w ≠ main_arg1))).trans (V_main_arg1 m c)
  rw [e2, e1]
  rfl

/-- The run, read: the result at the finishing steps of the half sums, the arguments unchanged. -/
theorem run : θ_run defs (onTc (τ := τ) (main (F := Ideal))) ⟨m, fun _ => 0, ρ⟩ fun r => ∀ c : Dev nD,
      r.2.mem ((c.tc : Thread nD τ).loc main_v15) = finish (halves m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v15 (Pipeline.mem_restRefs_of main_v15 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Acc

end
-- ==== Proof.Bridge.lean ====
import proofs.«407672_j927712936495_2_alg».proof.Proof.Final
import Mathlib.Algebra.BigOperators.Intervals
import Mathlib.Algebra.BigOperators.Fin
import Mathlib.Logic.Equiv.Fin.Basic

set_option maxRecDepth 16384

noncomputable section

open Idealize.ShloMosaic Idealize.ShloMosaic.TcCoe Idealize.SL.Sem
open Idealize.ShloMosaic.Pipeline (Dat)

/-! The kernel's numerator read at one entry. Adding the two slabs gives, at (g, j), the contributions of all 2048
    rows; folding the 49 columns 49 mm .. 49 mm + 48 and exchanging the two sums gives, for each row whose word
    names g, the sum of its 49 entries in those columns, which are the 7 x 7 patch (n, mm, ·, ·) of the input. -/
namespace Cert.KernelIdeal.Acc

open Cert.KernelIdeal Cert.KernelIdeal.Gen Idealize.ShloMosaic.ValueIdx

variable (m : (ℓ : Loc nD τ sig) → Buf (Elt Ideal) ℓ)

/-- The two inputs as launched: the [2048, 512, 7, 7] array and the index vector. -/
abbrev xin (c : Dev nD) : FVec Ideal S2048x512x7x7 .f32 := m ((c : Thread nD τ).loc main_arg0)
abbrev idin (c : Dev nD) : IVec S2048 32 := m ((c : Thread nD τ).loc main_arg1)

/-- The two slabs added: all 2048 rows' contributions. -/
theorem total_apply (c : Dev nD) (g : Fin 64) (j : Fin 25088) :
    (Host.reduceAdd (halves m c) (constant S_ .f32 0x00000000#32) reducesTo_S2x64x25088_S64x25088_d0 h_S_ : FVec Ideal S64x25088 .f32) (ix2 g j)
      = ∑ n : Fin 2048, if idin m c (ix1 n) = BitVec.ofNat 32 g.val then rowsArr m c (ix2 n j) else 0 := by
  show Ideal.hostReduceAdd reducesTo_S2x64x25088_S64x25088_d0 (halves m c) (Ideal.ofBits .f32 0x00000000#32) (ix2 g j) = _
  rw [Ideal.hostReduceAdd_single _ (by decide : S2x64x25088.Reduces [0] S64x25088), Ideal.ofBits_zero_f32, zero_add]
  have hl : ∀ cc : Fin 2, (by decide : S2x64x25088.Reduces [0] S64x25088).lift (ix2 g j) cc = ix3 cc g j := fun cc =>
    funext fun a => match a with | ⟨0, _⟩ => rfl | ⟨1, _⟩ => rfl | ⟨2, _⟩ => rfl
  refine (Fin.sum_univ_two _).trans ?_
  rw [hl, hl]
  show (∑ k ∈ Finset.Ico (1024 * 0) (1024 * 0 + 1024), contrib m c g j k) + (∑ k ∈ Finset.Ico (1024 * 1) (1024 * 1 + 1024), contrib m c g j k) = _
  rw [Finset.sum_Ico_consecutive _ (by norm_num) (by norm_num), show (1024 * 0 : ℕ) = 0 from rfl, show (1024 * 1 + 1024 : ℕ) = 2048 from rfl,
    Nat.Ico_zero_eq_range, ← Fin.sum_univ_eq_sum_range]
  refine Finset.sum_congr rfl fun n _ => ?_
  unfold contrib
  rw [dif_pos n.isLt, idsArr_apply]

/-- Folding each run of 49 columns. -/
theorem folded_apply (slabs : FVec Ideal S2x64x25088 .f32) (g : Fin 64) (mm : Fin 512) :
    folded slabs (ix2 g mm) = ∑ q : Fin 49,
      (Host.reduceAdd slabs (constant S_ .f32 0x00000000#32) reducesTo_S2x64x25088_S64x25088_d0 h_S_ : FVec Ideal S64x25088 .f32)
        (ix2 g ⟨49 * mm.val + q.val, by have := mm.isLt; have := q.isLt; omega⟩) := by
  show Ideal.hostReduceAdd reducesTo_S64x512x49_S64x512_d2 _ (Ideal.ofBits .f32 0x00000000#32) (ix2 g mm) = _
  rw [Ideal.hostReduceAdd_single _ (by decide : S64x512x49.Reduces [2] S64x512), Ideal.ofBits_zero_f32, zero_add]
  refine Finset.sum_congr rfl fun q _ => ?_
  have hq : q.val < 49 := q.isLt
  refine shapeCast_apply _ _ _ (ix2 g ⟨49 * mm.val + q.val, by have := mm.isLt; omega⟩) ?_
  rw [Shape.rowMajor_val_two, Shape.rowMajor_val_three]
  show g.val * 25088 + (49 * mm.val + q.val) = (g.val * 512 + mm.val) * 49 + q.val
  omega

/-- The 49 entries of row n in columns 49 mm .. 49 mm + 48 are the input's patch (n, mm, ·, ·). -/
theorem patch_sum (c : Dev nD) (n : Fin 2048) (mm : Fin 512) :
    ∑ q : Fin 49, rowsArr m c (ix2 n ⟨49 * mm.val + q.val, by have := mm.isLt; have := q.isLt; omega⟩)
      = ∑ h : Fin 7, ∑ w : Fin 7, xin m c (ix4 n mm h w) := by
  refine ((Equiv.sum_comp (finProdFinEquiv : Fin 7 × Fin 7 ≃ Fin 49) _).symm.trans ?_)
  rw [Fintype.sum_prod_type]
  refine Finset.sum_congr rfl fun h _ => Finset.sum_congr rfl fun w _ => ?_
  refine rowsArr_apply m c n _ mm h w ?_
  show 49 * mm.val + (w.val + 7 * h.val) = 49 * mm.val + 7 * h.val + w.val
  omega

/-- The kernel's numerator at (g, mm): the patch sums of the rows whose word names g. -/
theorem numer_apply (c : Dev nD) (g : Fin 64) (mm : Fin 512) :
    folded (halves m c) (ix2 g mm)
      = ∑ n : Fin 2048, if idin m c (ix1 n) = BitVec.ofNat 32 g.val then ∑ h : Fin 7, ∑ w : Fin 7, xin m c (ix4 n mm h w) else 0 := by
  rw [folded_apply]
  simp only [total_apply]
  rw [Finset.sum_comm]
  refine Finset.sum_congr rfl fun n _ => ?_
  by_cases hit : idin m c (ix1 n) = BitVec.ofNat 32 g.val
  · simp only [hit, if_true]
    exact patch_sum m c n mm
  · simp only [hit, if_false, Finset.sum_const_zero]

end Cert.KernelIdeal.Acc

end
-- ==== Proof.RefSum.lean ====
import proofs.«407672_j927712936495_2_alg».proof.Proof.Gen.ReferenceIdeal.Read
import proofs.«407672_j927712936495_2_alg».proof.Proof.SegSum
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

/-! The reference's numerator read at one entry. The reference first sums each 7 x 7 spatial patch, then
    scatter-adds row n of the [2048, 512] result into row idx[n] of a zero [64, 512] array: an update lands on
    (g, mm) exactly when its row's index word, read as a signed integer, is g and its column is mm; updates whose
    word is outside 0 .. 63 land nowhere. So entry (g, mm) is the sum, over the rows whose word names g, of the
    row's patch sum at mm. -/
namespace Cert.ReferenceIdeal.Seg

open Cert.ReferenceIdeal Cert.ReferenceIdeal.Gen Cert.ReferenceIdeal.Read Idealize.ShloMosaic.ValueIdx

/-- An update lands on an entry exactly when start plus window coordinate is the entry's coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · rename_i hc
      injection h with h
      subst h
      intro a
      have := hc a
      show _ = (((d.start j idx a + (d.window j a : ℤ)).toNat : ℕ) : ℤ)
      omega
    · cases h
  · intro h
    have hc : ∀ a, 0 ≤ d.start j idx a + (d.window j a : ℤ) ∧ d.start j idx a + (d.window j a : ℤ) < s.size a := fun a => by
      rw [h a]; exact ⟨Int.natCast_nonneg _, by exact_mod_cast (i a).isLt⟩
    rw [dif_pos hc]
    congr 1
    funext a
    apply Fin.ext
    show (d.start j idx a + (d.window j a : ℤ)).toNat = (i a).val
    rw [h a]
    simp

/-- The scatter's dimension numbers: the start on the group axis is the row's index word read signed, -/
theorem start0 (j : S2048x512.Idx) (idx : IVec S2048x1 32) :
    scatter_S64x512_S2048x1_S2048x512_1_0_0_1.start j idx 0 = (idx (ix2 (j 0) 0)).toInt := by
  unfold ScatterDims.start
  rw [dif_pos (show (0 : Fin S64x512.rank) ∈ scatter_S64x512_S2048x1_S2048x512_1_0_0_1.scatterDimsToOperandDims by decide)]
  refine congrArg (fun k => (idx k).toInt) (funext fun b => ?_)
  match b with
  | ⟨0, _⟩ => rfl
  | ⟨1, _⟩ => rfl
/-- zero on the column axis; -/
theorem start1 (j : S2048x512.Idx) (idx : IVec S2048x1 32) :
    scatter_S64x512_S2048x1_S2048x512_1_0_0_1.start j idx 1 = 0 := by
  unfold ScatterDims.start
  rw [dif_neg (show ¬(1 : Fin S64x512.rank) ∈ scatter_S64x512_S2048x1_S2048x512_1_0_0_1.scatterDimsToOperandDims by decide)]
/-- the window is one row wide: nothing on the group axis, the update's column on the column axis. -/
theorem window0 (j : S2048x512.Idx) : scatter_S64x512_S2048x1_S2048x512_1_0_0_1.window j 0 = 0 := by
  unfold ScatterDims.window
  rw [dif_neg (show ¬(0 : Fin S64x512.rank) ∈ scatter_S64x512_S2048x1_S2048x512_1_0_0_1.sKept by decide)]
theorem window1 (j : S2048x512.Idx) : scatter_S64x512_S2048x1_S2048x512_1_0_0_1.window j 1 = (j 1).val := by
  unfold ScatterDims.window
  rw [dif_pos (show (1 : Fin S64x512.rank) ∈ scatter_S64x512_S2048x1_S2048x512_1_0_0_1.sKept by decide)]
  rfl

/-- Update (n, m') lands on (g, mm) exactly when row n's word names g and m' = mm. -/
theorem lands_iff (ids : IVec S2048 32) (n : Fin 2048) (m' : Fin 512) (g : Fin 64) (mm : Fin 512) :
    scatter_S64x512_S2048x1_S2048x512_1_0_0_1.resultIdx? (ix2 n m') (val_main_v2 (F := Ideal) ids) = some (ix2 g mm)
      ↔ (ids (ix1 n) = BitVec.ofNat 32 g.val ∧ m' = mm) := by
  rw [resultIdx?_eq_some_iff, Fin.forall_fin_two, start0, start1, window0, window1, val_main_v2_apply]
  have e : idx_main_v2 (ix2 (ix2 n m' 0) 0) = ix1 n := funext fun a => match a with | ⟨0, _⟩ => rfl
  rw [e, ← Cert.SegSum.toInt_eq_iff _ g.val g.isLt, Fin.ext_iff]
  show ((ids (ix1 n)).toInt + ((0 : ℕ) : ℤ) = (g.val : ℤ) ∧ (0 : ℤ) + (m'.val : ℤ) = (mm.val : ℤ)) ↔ _
  omega

/-- Dropping the two spatial axes of (n, mm, h, w) leaves (n, mm), -/
theorem drop_ix4 (n : Fin 2048) (mm : Fin 512) (h w : Fin 7) : reducesTo_S2048x512x7x7_S2048x512_d2_3.drop (ix4 n mm h w) = ix2 n mm := by
  funext b
  match b with
  | ⟨0, _⟩ => rfl
  | ⟨1, _⟩ => rfl
/-- and an index that drops to (n, mm) is (n, mm, its two spatial coordinates). -/
theorem eq_ix4_of_drop (i : S2048x512x7x7.Idx) (n : Fin 2048) (mm : Fin 512) (h : reducesTo_S2048x512x7x7_S2048x512_d2_3.drop i = ix2 n mm) :
    i = ix4 n mm (i 2) (i 3) := by
  have h0 : i 0 = n := congrFun h 0
  have h1 : i 1 = mm := congrFun h 1
  funext a
  match a with
  | ⟨0, _⟩ => exact h0
  | ⟨1, _⟩ => exact h1
  | ⟨2, _⟩ => rfl
  | ⟨3, _⟩ => rfl

/-- The 49 indices of one spatial patch. -/
def patch (n : Fin 2048) (mm : Fin 512) : Fin 7 × Fin 7 ↪ S2048x512x7x7.Idx :=
  ⟨fun p => ix4 n mm p.1 p.2, fun p p' h => Prod.ext (congrFun h 2) (congrFun h 3)⟩

theorem filter_drop (n : Fin 2048) (mm : Fin 512) :
    Finset.univ.filter (fun i : S2048x512x7x7.Idx => reducesTo_S2048x512x7x7_S2048x512_d2_3.drop i = ix2 n mm) = Finset.univ.map (patch n mm) := by
  ext i
  simp only [Finset.mem_filter, Finset.mem_univ, true_and, Finset.mem_map, patch, Function.Embedding.coeFn_mk]
  exact ⟨fun h => ⟨(i 2, i 3), (eq_ix4_of_drop i n mm h).symm⟩, fun ⟨p, hp⟩ => hp ▸ drop_ix4 n mm p.1 p.2⟩

/-- The patch sum at (n, mm). -/
theorem spatial_apply (x : FVec Ideal S2048x512x7x7 .f32) (n : Fin 2048) (mm : Fin 512) :
    val_main_v0 (F := Ideal) x (ix2 n mm) = ∑ h : Fin 7, ∑ w : Fin 7, x (ix4 n mm h w) := by
  show Ideal.hostReduceAdd reducesTo_S2048x512x7x7_S2048x512_d2_3 x (Ideal.ofBits .f32 0x00000000#32) (ix2 n mm) = _
  unfold Ideal.hostReduceAdd
  rw [Ideal.ofBits_zero_f32, zero_add, filter_drop, Finset.sum_map, Fintype.sum_prod_type]
  rfl

/-- The reference's numerator at (g, mm): the patch sums of the rows whose word names g. -/
theorem numer_apply (x : FVec Ideal S2048x512x7x7 .f32) (ids : IVec S2048 32) (g : Fin 64) (mm : Fin 512) :
    val_main_v3 (F := Ideal) x ids (ix2 g mm)
      = ∑ n : Fin 2048, if ids (ix1 n) = BitVec.ofNat 32 g.val then ∑ h : Fin 7, ∑ w : Fin 7, x (ix4 n mm h w) else 0 := by
  show Ideal.hostScatterAdd scatter_S64x512_S2048x1_S2048x512_1_0_0_1 (val_main_v1 (F := Ideal)) (val_main_v2 (F := Ideal) ids) (val_main_v0 (F := Ideal) x) (ix2 g mm) = _
  unfold Ideal.hostScatterAdd
  rw [val_main_v1_apply, val_main_cst_0_apply]
  show Ideal.ofBits .f32 0x00000000#32 + _ = _
  rw [Ideal.ofBits_zero_f32, zero_add, Finset.sum_filter, sum_idx2]
  refine Finset.sum_congr rfl fun n _ => ?_
  simp only [lands_iff]
  by_cases hit : ids (ix1 n) = BitVec.ofNat 32 g.val
  · simp only [hit, true_and, if_true]
    rw [Finset.sum_ite_eq' Finset.univ mm, if_pos (Finset.mem_univ _), spatial_apply]
  · simp only [hit, false_and, if_false, Finset.sum_const_zero]

end Cert.ReferenceIdeal.Seg

end
-- ==== Proof.lean ====
import proofs.«407672_j927712936495_2_alg».proof.Defs
import proofs.«407672_j927712936495_2_alg».proof.Proof.Gen.Kernel
import proofs.«407672_j927712936495_2_alg».proof.Proof.Gen.Kernel.Frame
import proofs.«407672_j927712936495_2_alg».proof.Proof.Gen.KernelIdeal
import proofs.«407672_j927712936495_2_alg».proof.Proof.Gen.KernelIdeal.Frame
import proofs.«407672_j927712936495_2_alg».proof.Proof.Gen.ReferenceIdeal
import proofs.«407672_j927712936495_2_alg».proof.Proof.Gen.ReferenceIdeal.Run
import proofs.«407672_j927712936495_2_alg».proof.Proof.Gen.ReferenceIdeal.Read
import proofs.«407672_j927712936495_2_alg».proof.Proof.Gen.Pre_finite_inputs
import proofs.«407672_j927712936495_2_alg».proof.Proof.Bridge
import proofs.«407672_j927712936495_2_alg».proof.Proof.RefSum
import Idealize.ShloMosaic.Adequacy
import Idealize.ShloMosaic.Init

/-! Segment mean of spatial sums: for each of 64 groups g and 512 channels mm, the sum over the rows n whose
    index word names g of the 7 x 7 patch sum of x at (n, mm), divided by 49 times the number of such rows.
    The reference sums each patch first and scatter-adds the rows into their groups; the kernel multiplies a
    one-hot matrix of the indices with the flattened rows, block by block into an accumulator, one half of the
    rows per outer grid coordinate, and the host adds the halves and folds the 49 patch columns afterwards. Over
    the extended reals both numerators are the same double sum (sums commute and a one-hot factor either keeps a
    term or drops it), and the denominators are the same expression of the index vector, so the two results agree
    for every input, infinite entries and out-of-range indices (which both sides drop) included. -/

noncomputable section

namespace Cert.Proof

open Idealize.ShloMosaic Idealize.ShloMosaic.TcCoe Idealize.SL.Sem Idealize.ShloMosaic.ValueIdx

/-- The two numerators are one function of the two inputs. -/
theorem numer_eq (m : (ℓ : Loc Cert.KernelIdeal.nD Cert.KernelIdeal.τ Cert.KernelIdeal.sig) → Buf (Elt Ideal) ℓ) (c : Dev Cert.KernelIdeal.nD) :
    Cert.KernelIdeal.Acc.folded (Cert.KernelIdeal.Acc.halves m c)
      = Cert.ReferenceIdeal.Read.val_main_v3 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  obtain ⟨g, mm, rfl⟩ : ∃ (g : Fin 64) (mm : Fin 512), i = ix2 g mm := ⟨i 0, i 1, eq_ix2 i⟩
  rw [Cert.KernelIdeal.Acc.numer_apply m c g mm]
  exact (Cert.ReferenceIdeal.Seg.numer_apply _ _ g mm).symm

/-- The two denominators are the same expression of the index vector. -/
theorem denom_eq (ids : IVec Cert.KernelIdeal.S2048 32) :
    Cert.KernelIdeal.Acc.denom ids = Cert.ReferenceIdeal.Read.val_main_v11 (F := Ideal) ids := rfl

/-- So the two programs' results are one function of the two inputs. -/
theorem result_eq (m : (ℓ : Loc Cert.KernelIdeal.nD Cert.KernelIdeal.τ Cert.KernelIdeal.sig) → Buf (Elt Ideal) ℓ) (c : Dev Cert.KernelIdeal.nD) :
    Cert.KernelIdeal.Acc.finish (Cert.KernelIdeal.Acc.halves m c) (m ((c.tc : Thread Cert.KernelIdeal.nD Cert.KernelIdeal.τ).loc Cert.KernelIdeal.main_arg1))
      = Cert.ReferenceIdeal.Read.val_main_v13 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  unfold Cert.KernelIdeal.Acc.finish Cert.ReferenceIdeal.Read.val_main_v13 Cert.ReferenceIdeal.Read.val_main_v12
  rw [numer_eq m c, denom_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the segment mean of the arguments they agree on. -/
theorem algebraic : Cert.algebraic_KernelIdeal_ReferenceIdeal := by
  intro m ρ m' ρ' _ hagree
  refine ⟨fun c => Cert.KernelIdeal.Acc.finish (Cert.KernelIdeal.Acc.halves m c)
      (m ((c.tc : Thread Cert.KernelIdeal.nD Cert.KernelIdeal.τ).loc Cert.KernelIdeal.main_arg1)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact ((Cert.ReferenceIdeal.Read.val_main_v13_eq _ _).trans (result_eq m c).symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
